-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x200x512 .f32) (main_arg1 : FVec F S8x50x512 .f32) (main_arg2 : FVec F S1024x512 .f32) (main_arg3 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S8x200x50x1024 : Shape := ⟨4, ![8, 200, 50, 1024]⟩
abbrev S1x40x512 : Shape := ⟨3, ![1, 40, 512]⟩
abbrev S1x50x512 : Shape := ⟨3, ![1, 50, 512]⟩
abbrev S1x40x50x1024 : Shape := ⟨4, ![1, 40, 50, 1024]⟩
abbrev S40x512 : Shape := ⟨2, ![40, 512]⟩
abbrev S50x512 : Shape := ⟨2, ![50, 512]⟩
abbrev S40x1024 : Shape := ⟨2, ![40, 1024]⟩
abbrev S50x1024 : Shape := ⟨2, ![50, 1024]⟩
abbrev S40x1x1024 : Shape := ⟨3, ![40, 1, 1024]⟩
abbrev S1x50x1024 : Shape := ⟨3, ![1, 50, 1024]⟩
abbrev S40x50x1024 : Shape := ⟨3, ![40, 50, 1024]⟩
abbrev S1x1x1024 : Shape := ⟨3, ![1, 1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S8x200x50x1024, .f32⟩
  | .local _ .vmem, ⟨0, _⟩ => ⟨S1x40x512, .f32⟩
  | .local _ .vmem, ⟨1, _⟩ => ⟨S1x40x512, .f32⟩
  | .local _ .vmem, ⟨2, _⟩ => ⟨S1x50x512, .f32⟩
  | .local _ .vmem, ⟨3, _⟩ => ⟨S1x50x512, .f32⟩
  | .local _ .vmem, ⟨4, _⟩ => ⟨S1024x512, .f32⟩
  | .local _ .vmem, ⟨5, _⟩ => ⟨S1024, .f32⟩
  | .local _ .vmem, ⟨6, _⟩ => ⟨S1x40x50x1024, .f32⟩
  | .local _ .vmem, ⟨7, _⟩ => ⟨S1x40x50x1024, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x40x50x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S1x50x512_S1x50x512_0_0_0 : ∀ a, (![0, 0, 0] : Fin 3 → Nat) a + S1x50x512.size a ≤ S1x50x512.size a
  h_S1x50x512 : 0 < S1x50x512.numel
  shapeCasts_S1x50x512_S50x512 : S1x50x512.ShapeCasts S50x512
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  bitsLt_bf16_f32 : FTy.bits .bf16 < FTy.bits .f32
  shapeCasts_S40x1024_S40x1x1024 : S40x1024.ShapeCasts S40x1x1024
  shapeCasts_S50x1024_S1x50x1024 : S50x1024.ShapeCasts S1x50x1024
  broadcasts_S40x1x1024_S40x50x1024 : S40x1x1024.Broadcasts S40x50x1024
  broadcasts_S1x50x1024_S40x50x1024 : S1x50x1024.Broadcasts S40x50x1024
  shapeCasts_S1024_S1x1x1024 : S1024.ShapeCasts S1x1x1024
  broadcasts_S1x1x1024_S40x50x1024 : S1x1x1024.Broadcasts S40x50x1024
  inb_S1x40x50x1024_S1x40x50x1024_0_0_0_0 : ∀ a, (![0, 0, 0, 0] : Fin 4 → Nat) a + S1x40x50x1024.size a ≤ S1x40x50x1024.size a
  h_S1x40x50x1024 : 0 < S1x40x50x1024.numel
  shapeCasts_S1x40x50x1024_S40x50x1024 : S1x40x50x1024.ShapeCasts S40x50x1024
  shapeCasts_S40x50x1024_S1x40x50x1024 : S40x50x1024.ShapeCasts S1x40x50x1024
  dot_S40x512_S1024x512_S40x1024_1_1_0_0_n_n_wf : DotDims.WF S40x512 S1024x512 S40x1024 [1] [1] [0] [0] [] []
  dot_S50x512_S1024x512_S50x1024_1_1_0_0_n_n_wf : DotDims.WF S50x512 S1024x512 S50x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .f32 = 32 ∨ (Rect.block (s := S8x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x512.size a ≤ S8x50x512.size a
  hwx0_1 : ∀ i : grid0.Coords, EltTy.bits .f32 = 32 ∨ (Rect.block (s := S8x50x512) S1x50x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x40x50x1024.size a ≤ S8x200x50x1024.size a
  hwx0_4 : ∀ i : grid0.Coords, EltTy.bits .f32 = 32 ∨ (Rect.block (s := S8x200x50x1024) S1x40x50x1024.size (cc0_transform_4 i) (hinb0_4 i)).WholeWords (EltTy.packing .f32)

variable [Facts₀]

def dot_S40x512_S1024x512_S40x1024_1_1_0_0_n_n : DotDims S40x512 S1024x512 S40x1024 where
  lhsContracting := [1]
  rhsContracting := [1]
  lhsNonContracting := [0]
  rhsNonContracting := [0]
  lhsBatch := []
  rhsBatch := []
  wf := dot_S40x512_S1024x512_S40x1024_1_1_0_0_n_n_wf
def dot_S50x512_S1024x512_S50x1024_1_1_0_0_n_n : DotDims S50x512 S1024x512 S50x1024 where
  lhsContracting := [1]
  rhsContracting := [1]
  lhsNonContracting := [0]
  rhsNonContracting := [0]
  lhsBatch := []
  rhsBatch := []
  wf := dot_S50x512_S1024x512_S50x1024_1_1_0_0_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x50x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x40x50x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S8x200x1x512 : Shape := ⟨4, ![8, 200, 1, 512]⟩
abbrev S8x1x50x512 : Shape := ⟨4, ![8, 1, 50, 512]⟩
abbrev S8x200x50x512 : Shape := ⟨4, ![8, 200, 50, 512]⟩
abbrev S8x200x50x1024 : Shape := ⟨4, ![8, 200, 50, 1024]⟩
abbrev S1x1x1x1024 : Shape := ⟨4, ![1, 1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S8x200x1x512, .f32⟩
  | .hbm, ⟨5, _⟩ => ⟨S8x1x50x512, .f32⟩
  | .hbm, ⟨6, _⟩ => ⟨S8x200x50x512, .f32⟩
  | .hbm, ⟨7, _⟩ => ⟨S8x200x50x512, .f32⟩
  | .hbm, ⟨8, _⟩ => ⟨S8x200x50x512, .f32⟩
  | .hbm, ⟨9, _⟩ => ⟨S8x200x50x1024, .f32⟩
  | .hbm, ⟨10, _⟩ => ⟨S1x1x1x1024, .f32⟩
  | .hbm, ⟨11, _⟩ => ⟨S8x200x50x1024, .f32⟩
  | .hbm, ⟨12, _⟩ => ⟨S8x200x50x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8x200x512_S8x200x1x512_0_1_3 : S8x200x512.BroadcastsInDim S8x200x1x512 (![0, 1, 3] : Fin 3 → Fin S8x200x1x512.rank)
  bcast_S8x50x512_S8x1x50x512_0_2_3 : S8x50x512.BroadcastsInDim S8x1x50x512 (![0, 2, 3] : Fin 3 → Fin S8x1x50x512.rank)
  bcast_S8x200x1x512_S8x200x50x512_0_1_2_3 : S8x200x1x512.BroadcastsInDim S8x200x50x512 (![0, 1, 2, 3] : Fin 4 → Fin S8x200x50x512.rank)
  bcast_S8x1x50x512_S8x200x50x512_0_1_2_3 : S8x1x50x512.BroadcastsInDim S8x200x50x512 (![0, 1, 2, 3] : Fin 4 → Fin S8x200x50x512.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  dot_S8x200x50x512_S1024x512_S8x200x50x1024_3_1_012_0_n_n_wf : DotDims.WF S8x200x50x512 S1024x512 S8x200x50x1024 [3] [1] [0, 1, 2] [0] [] []

variable [Facts₀]

def dot_S8x200x50x512_S1024x512_S8x200x50x1024_3_1_012_0_n_n : DotDims S8x200x50x512 S1024x512 S8x200x50x1024 where
  lhsContracting := [3]
  rhsContracting := [1]
  lhsNonContracting := [0, 1, 2]
  rhsNonContracting := [0]
  lhsBatch := []
  rhsBatch := []
  wf := dot_S8x200x50x512_S1024x512_S8x200x50x1024_3_1_012_0_n_n_wf

class Facts : Prop extends Facts₀ where

variable [Facts]
-- ==== Proof.Spec.lean ====
/-
  The joiner's output as a function of its four argument arrays, read as extended reals.

  out[b, t, u, v] is the affine map x ↦ W x + bias applied to the sum enc[b, t, :] + pred[b, u, :] of an encoder
  row and a predictor row. Two arrangements are stated. `projThenAdd` projects the encoder row and the predictor
  row through W separately and adds the two projections and the bias:
      (Σ_k enc[b,t,k] · W[v,k]) + (Σ_k pred[b,u,k] · W[v,k]) + bias[v].
  `addThenProj` adds the two rows first and projects once:
      (Σ_k (enc[b,t,k] + pred[b,u,k]) · W[v,k]) + bias[v].
  They agree when every entry of enc, pred and W is a real number (`addThenProj_eq`). The step is
  (a + p) · w = a · w + p · w term by term; on the extended reals that law fails at infinities (for example
  (⊤ + ⊥) · w against ⊤ · w + ⊥ · w with w < 0), so the three factors are taken finite. After it,
  Σ_k (x_k + y_k) = Σ_k x_k + Σ_k y_k holds on the extended reals as they are, addition there being commutative
  and associative. The bias is added last on both sides and needs nothing.
-/
import Idealize.ShloMosaic.PureOps.Ideal
import Idealize.ShloMosaic.Lib.ValueIdx

noncomputable section

namespace Joiner

open Idealize.ShloMosaic Idealize.ShloMosaic.ValueIdx

/-- The encoder array's shape [B, T, D]. -/
abbrev EncS : Shape := ⟨3, ![8, 200, 512]⟩
/-- The predictor array's shape [B, U, D]. -/
abbrev PredS : Shape := ⟨3, ![8, 50, 512]⟩
/-- The weight's shape [V, D]. -/
abbrev WeightS : Shape := ⟨2, ![1024, 512]⟩
/-- The bias's shape [V]. -/
abbrev BiasS : Shape := ⟨1, ![1024]⟩
/-- The output's shape [B, T, U, V]. -/
abbrev OutS : Shape := ⟨4, ![8, 200, 50, 1024]⟩

/-- Every entry of the array is a real number (neither infinity). -/
def AllReal {s : Shape} (x : s.Idx → EReal) : Prop := ∀ i, ∃ r : ℝ, x i = (r : EReal)

/-- Project each row through W, then add the projections and the bias. -/
def projThenAdd (e : EncS.Idx → EReal) (p : PredS.Idx → EReal) (w : WeightS.Idx → EReal) (b : BiasS.Idx → EReal) :
    OutS.Idx → EReal := fun i =>
  (∑ k : Fin 512, e (ix3 (i 0) (i 1) k) * w (ix2 (i 3) k))
    + (∑ k : Fin 512, p (ix3 (i 0) (i 2) k) * w (ix2 (i 3) k)) + b (ix1 (i 3))

/-- Add the two rows, project the sum through W once, then add the bias. -/
def addThenProj (e : EncS.Idx → EReal) (p : PredS.Idx → EReal) (w : WeightS.Idx → EReal) (b : BiasS.Idx → EReal) :
    OutS.Idx → EReal := fun i =>
  (∑ k : Fin 512, (e (ix3 (i 0) (i 1) k) + p (ix3 (i 0) (i 2) k)) * w (ix2 (i 3) k)) + b (ix1 (i 3))

/-- A product distributes over a sum of two real numbers, the factor real too. -/
theorem add_mul_of_real {a p w : EReal} (ha : ∃ r : ℝ, a = (r : EReal)) (hp : ∃ r : ℝ, p = (r : EReal))
    (hw : ∃ r : ℝ, w = (r : EReal)) : (a + p) * w = a * w + p * w := by
  obtain ⟨x, rfl⟩ := ha
  obtain ⟨y, rfl⟩ := hp
  obtain ⟨z, rfl⟩ := hw
  rw [← EReal.coe_add, ← EReal.coe_mul, ← EReal.coe_mul, ← EReal.coe_mul, ← EReal.coe_add, add_mul]

/-- The two arrangements are one function of real-valued enc, pred and W (any bias): distribute in every term, then
    split the sum of sums. -/
theorem addThenProj_eq (e : EncS.Idx → EReal) (p : PredS.Idx → EReal) (w : WeightS.Idx → EReal) (b : BiasS.Idx → EReal)
    (he : AllReal e) (hp : AllReal p) (hw : AllReal w) : addThenProj e p w b = projThenAdd e p w b := by
  funext i
  unfold addThenProj projThenAdd
  congr 1
  rw [← Finset.sum_add_distrib]
  exact Finset.sum_congr rfl fun k _ => add_mul_of_real (he _) (hp _) (hw _)

end Joiner

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.KernelPayload.lean ====
/-
  The kernel body's stored value at an index of its output block.

  At one grid point the body holds a [1, 40, 512] block of the encoder array, the [1, 50, 512] block of the
  predictor array for the same batch entry, all of W and all of the bias. It drops the blocks' leading unit axis,
  multiplies each against W contracted on the last axis of both (the change of float format before the products is
  the identity on extended reals, and the products accumulate into zero), views the [40, 1024] product as
  [40, 1, 1024] and the [50, 1024] product as [1, 50, 1024], broadcasts both to [40, 50, 1024], adds them, adds the
  bias viewed as [1, 1, 1024] and broadcast, and stores the sum as the [1, 40, 50, 1024] block. So at (0, r, q, v)
  the stored value is
      (Σ_k encblk[0, r, k] · W[v, k]) + (Σ_k predblk[0, q, k] · W[v, k]) + bias[v].
  Each layout step is read at an index by the position it keeps in row-major order.
-/
import proofs.«153829_j43542378446962_1_alg».proof.Proof.Gen.KernelIdeal.Skeleton
import proofs.«153829_j43542378446962_1_alg».proof.Proof.LibTransposedRhsDot
import Idealize.ShloMosaic.Lib.Pipeline.Value
import Idealize.ShloMosaic.Lib.ValueLayout
import Idealize.ShloMosaic.Lib.ValueIdx

noncomputable section

namespace Cert.KernelIdeal.Payload

open Cert.KernelIdeal Cert.KernelIdeal.Gen Idealize.ShloMosaic Idealize.ShloMosaic.ValueIdx

variable {α : Type}

/-! ## The layout steps, each read at an index given by coordinates -/

/-- A [40, 1024] array viewed as [40, 1, 1024] reads (r, v) at (r, 0, v). -/
theorem cast_rows (y : S40x1024.Idx → α) (h : S40x1024.ShapeCasts S40x1x1024) (r : Fin 40) (z : Fin 1) (v : Fin 1024) :
    shapeCast S40x1x1024 y h (ix3 r z v) = y (ix2 r v) :=
  shapeCast_apply y h _ _ (by
    have hz : z.val = 0 := by omega
    rw [Shape.rowMajor_val_two, Shape.rowMajor_val_three]
    show r.val * 1024 + v.val = (r.val * 1 + z.val) * 1024 + v.val
    omega)

/-- A [1024] array viewed as [1, 1, 1024] reads v at (0, 0, v). -/
theorem cast_bias (y : S1024.Idx → α) (h : S1024.ShapeCasts S1x1x1024) (z z' : Fin 1) (v : Fin 1024) :
    shapeCast S1x1x1024 y h (ix3 z z' v) = y (ix1 v) :=
  shapeCast_apply y h _ _ (by
    have hz : z.val = 0 := by omega
    have hz' : z'.val = 0 := by omega
    rw [Shape.rowMajor_val_one, Shape.rowMajor_val_three]
    show v.val = (z.val * 1 + z'.val) * 1024 + v.val
    omega)

/-- A [40, 1, 1024] array broadcast to [40, 50, 1024] reads (r, 0, v) at (r, q, v). -/
theorem bcast_rows (y : S40x1x1024.Idx → α) (h : S40x1x1024.Broadcasts S40x50x1024) (r : Fin 40) (q : Fin 50) (v : Fin 1024) :
    broadcastTo S40x50x1024 y h (ix3 r q v) = y (ix3 r (0 : Fin 1) v) :=
  broadcastTo_apply y h _ _ fun a => match a with
    | ⟨0, _⟩ => by show r.val = if (40 : Nat) = 1 then 0 else r.val; rw [if_neg (by decide)]
    | ⟨1, _⟩ => by show 0 = if (1 : Nat) = 1 then 0 else q.val; rw [if_pos rfl]
    | ⟨2, _⟩ => by show v.val = if (1024 : Nat) = 1 then 0 else v.val; rw [if_neg (by decide)]

/-- A [1, 50, 1024] array broadcast to [40, 50, 1024] reads (0, q, v) at (r, q, v). -/
theorem bcast_cols (y : S1x50x1024.Idx → α) (h : S1x50x1024.Broadcasts S40x50x1024) (r : Fin 40) (q : Fin 50) (v : Fin 1024) :
    broadcastTo S40x50x1024 y h (ix3 r q v) = y (ix3 (0 : Fin 1) q v) :=
  broadcastTo_apply y h _ _ fun a => match a with
    | ⟨0, _⟩ => by show 0 = if (1 : Nat) = 1 then 0 else r.val; rw [if_pos rfl]
    | ⟨1, _⟩ => by show q.val = if (50 : Nat) = 1 then 0 else q.val; rw [if_neg (by decide)]
    | ⟨2, _⟩ => by show v.val = if (1024 : Nat) = 1 then 0 else v.val; rw [if_neg (by decide)]

/-- A [1, 1, 1024] array broadcast to [40, 50, 1024] reads (0, 0, v) at (r, q, v). -/
theorem bcast_bias (y : S1x1x1024.Idx → α) (h : S1x1x1024.Broadcasts S40x50x1024) (r : Fin 40) (q : Fin 50) (v : Fin 1024) :
    broadcastTo S40x50x1024 y h (ix3 r q v) = y (ix3 (0 : Fin 1) (0 : Fin 1) v) :=
  broadcastTo_apply y h _ _ fun a => match a with
    | ⟨0, _⟩ => by show 0 = if (1 : Nat) = 1 then 0 else r.val; rw [if_pos rfl]
    | ⟨1, _⟩ => by show 0 = if (1 : Nat) = 1 then 0 else q.val; rw [if_pos rfl]
    | ⟨2, _⟩ => by show v.val = if (1024 : Nat) = 1 then 0 else v.val; rw [if_neg (by decide)]

/-! ## The two products -/

/-- The encoder block's product with W, at (r, v): the sum over k of the block at (0, r, k) times W at (v, k). -/
theorem enc_proj (x0 : FVec Ideal S1x40x512 .f32) (x2 : FVec Ideal S1024x512 .f32) (r : Fin 40) (v : Fin 1024) :
    matmul dot_S40x512_S1024x512_S40x1024_1_1_0_0_n_n none
        (truncf .bf16 (shapeCast S40x512 x0 shapeCasts_S1x40x512_S40x512) bitsLt_bf16_f32)
        (truncf .bf16 x2 bitsLt_bf16_f32) (constant (F := Ideal) S40x1024 .f32 0x00000000#32) (ix2 r v)
      = ∑ k : Fin 512, x0 (ix3 (0 : Fin 1) r k) * x2 (ix2 v k) := by
  refine (TransposedRhsDot.matmul_zero_apply dot_S40x512_S1024x512_S40x1024_1_1_0_0_n_n rfl none _ _ (ix2 r v)).trans ?_
  refine Finset.sum_congr rfl fun k _ => ?_
  rw [truncf_apply, truncf_apply]
  exact congrArg (· * x2 (ix2 v k)) (shapeCast_1ab_ab_apply x0 shapeCasts_S1x40x512_S40x512 r k)

/-- The predictor block's product with W, at (q, v): the sum over k of the block at (0, q, k) times W at (v, k). -/
theorem pred_proj (x1 : FVec Ideal S1x50x512 .f32) (x2 : FVec Ideal S1024x512 .f32) (q : Fin 50) (v : Fin 1024) :
    matmul dot_S50x512_S1024x512_S50x1024_1_1_0_0_n_n none
        (truncf .bf16 (shapeCast S50x512 x1 shapeCasts_S1x50x512_S50x512) bitsLt_bf16_f32)
        (truncf .bf16 x2 bitsLt_bf16_f32) (constant (F := Ideal) S50x1024 .f32 0x00000000#32) (ix2 q v)
      = ∑ k : Fin 512, x1 (ix3 (0 : Fin 1) q k) * x2 (ix2 v k) := by
  refine (TransposedRhsDot.matmul_zero_apply dot_S50x512_S1024x512_S50x1024_1_1_0_0_n_n rfl none _ _ (ix2 q v)).trans ?_
  refine Finset.sum_congr rfl fun k _ => ?_
  rw [truncf_apply, truncf_apply]
  exact congrArg (· * x2 (ix2 v k)) (shapeCast_1ab_ab_apply x1 shapeCasts_S1x50x512_S50x512 q k)

/-! ## The stored value -/

/-- The body's stored value at (u, r, q, v) of the output block, from the four loaded blocks. -/
theorem stored_apply (x0 : FVec Ideal S1x40x512 .f32) (x1 : FVec Ideal S1x50x512 .f32) (x2 : FVec Ideal S1024x512 .f32)
    (x3 : FVec Ideal S1024 .f32) (u : Fin 1) (r : Fin 40) (q : Fin 50) (v : Fin 1024) :
    k0_pay1 (F := Ideal) x0 x1 x2 x3 (ix4 u r q v)
      = (∑ k : Fin 512, x0 (ix3 (0 : Fin 1) r k) * x2 (ix2 v k))
        + (∑ k : Fin 512, x1 (ix3 (0 : Fin 1) q k) * x2 (ix2 v k)) + x3 (ix1 v) := by
  unfold k0_pay1
  rw [shapeCast_abc_1abc_apply, addf_apply, addf_apply, bcast_rows, bcast_cols, bcast_bias, cast_rows,
    shapeCast_ab_1ab_apply, cast_bias, enc_proj, pred_proj]

end Cert.KernelIdeal.Payload

end
-- ==== Proof.KernelValue.lean ====
/-
  The kernel's output array after the run, as one function of the argument arrays.

  The grid has 8 × 5 points; point (bi, ti) holds rows 40·ti … 40·ti + 39 of batch entry bi of the encoder array,
  all of batch entry bi of the predictor array, all of W and of the bias, and writes back the block
  [bi, 40·ti … 40·ti + 39, all u, all v] of the output. What it writes at (0, r, q, v) of its block is the stored
  value of the body (the payload lemma) of those blocks, and each block entry is the array's entry at the block's
  offset plus the coordinate inside the block; so the written block is the restriction of `projThenAdd` of the
  four argument arrays to that block. The 40 blocks tile the output: the point that covers (b, t, u, v) is
  (b, t / 40). Hence the whole array ends at `projThenAdd` of the arguments.
-/
import proofs.«153829_j43542378446962_1_alg».proof.Proof.Gen.KernelIdeal.Value
import proofs.«153829_j43542378446962_1_alg».proof.Proof.KernelPayload
import proofs.«153829_j43542378446962_1_alg».proof.Proof.Spec

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The output array's value: `projThenAdd` of the four argument arrays as the region finds them. -/
abbrev joined (c : Dev nD) : S8x200x50x1024.Idx → EReal :=
  Joiner.projThenAdd (V m c main_arg0) (V m c main_arg1) (V m c main_arg2) (V m c main_arg3)

/-- The stored value at (u, r, q, v) of a block is `projThenAdd` of whole arrays at an index `i`, as soon as the
    loaded blocks read those arrays where `i` says: the encoder block's row r at (i 0, i 1), the predictor block's
    row q at (i 0, i 2), W's row v at i 3, the bias at i 3. -/
theorem stored_eq_joined (x0 : FVec Ideal S1x40x512 .f32) (x1 : FVec Ideal S1x50x512 .f32) (x2 : FVec Ideal S1024x512 .f32)
    (x3 : FVec Ideal S1024 .f32) (e : FVec Ideal S8x200x512 .f32) (p : FVec Ideal S8x50x512 .f32)
    (w : FVec Ideal S1024x512 .f32) (b : FVec Ideal S1024 .f32)
    (u : Fin 1) (r : Fin 40) (q : Fin 50) (v : Fin 1024) (i : S8x200x50x1024.Idx)
    (h0 : ∀ k : Fin 512, x0 (ix3 (0 : Fin 1) r k) = e (ix3 (i 0) (i 1) k))
    (h1 : ∀ k : Fin 512, x1 (ix3 (0 : Fin 1) q k) = p (ix3 (i 0) (i 2) k))
    (h2 : ∀ k : Fin 512, x2 (ix2 v k) = w (ix2 (i 3) k))
    (h3 : x3 (ix1 v) = b (ix1 (i 3))) :
    k0_pay1 (F := Ideal) x0 x1 x2 x3 (ix4 u r q v) = Joiner.projThenAdd e p w b i := by
  rw [Payload.stored_apply]
  unfold Joiner.projThenAdd
  simp only [h0, h1, h2, h3]

/-- The printed index maps, decided over the 40 grid points: the encoder window moves with the output window on the
    batch and row-block axes, the predictor window on the batch axis, every other block index is 0. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (2 : Fin 4) = 0
    ∧ win0_4.index t (3 : Fin 4) = 0 :=
  (by decide +kernel : ∀ t : Fin grid0.N, _)

/-- Every (batch entry, row block) pair is some grid point's output block. -/
theorem idx_onto : ∀ (q0 : Fin 8) (q1 : Fin 5), ∃ t : Fin cfg0.N, win0_4.index t = ![q0.val, q1.val, 0, 0] :=
  (by decide +kernel : ∀ (q0 : Fin 8) (q1 : Fin 5), ∃ t : Fin grid0.N, win0_4.index t = ![q0.val, q1.val, 0, 0])

/-- What point `t` writes back is block `t` of `joined`. -/
theorem flushed_eq (c : Dev nD) (t : Fin cfg0.N) :
    (dats m 0 c).flushed 4 t = ((cfg0.win 4).blk t).view.read (Elt Ideal) (joined m c) := by
  rw [Value.flushed4]
  unfold out0_4
  rw [View.canon_unit_zero zeros4]
  simp only [View.ld_unit_zero (S := S1x40x512) zeros3, View.ld_unit_zero (S := S1x50x512) zeros3,
    View.ld_unit_zero (S := S1024x512) zeros2, View.ld_unit_zero (S := S1024) zeros1]
  obtain ⟨f00, f01, f02, f10, f11, f12, f20, f21, f30, f42, f43⟩ := idx_facts t
  funext j
  show k0_pay1 (F := Ideal) (iblk m c 0 t) (iblk m c 1 t) (iblk m c 2 t) (iblk m c 3 t) j
    = joined m c (((cfg0.win 4).blk t).view.emb j)
  refine (congrArg (k0_pay1 (F := Ideal) (iblk m c 0 t) (iblk m c 1 t) (iblk m c 2 t) (iblk m c 3 t)) (eq_ix4 j)).trans ?_
  refine stored_eq_joined (iblk m c 0 t) (iblk m c 1 t) (iblk m c 2 t) (iblk m c 3 t)
    (V m c main_arg0) (V m c main_arg1) (V m c main_arg2) (V m c main_arg3) (j 0) (j 1) (j 2) (j 3)
    (((cfg0.win 4).blk t).view.emb j) ?_ ?_ ?_ ?_
  · intro k
    show V m c main_arg0 (((cfg0.win 0).blk t).view.emb (ix3 (0 : Fin 1) (j 1) k))
      = V m c main_arg0 (ix3 ((((cfg0.win 4).blk t).view.emb j) 0) ((((cfg0.win 4).blk t).view.emb j) 1) k)
    refine congrArg (V m c main_arg0) (funext fun a => Fin.ext ?_)
    match a with
    | ⟨0, _⟩ =>
      show win0_0.index t (0 : Fin 3) * 1 + 1 * 0 = win0_4.index t (0 : Fin 4) * 1 + 1 * (j 0).val
      have hj : (j 0).val < 1 := (j 0).isLt
      omega
    | ⟨1, _⟩ =>
      show win0_0.index t (1 : Fin 3) * 40 + 1 * (j 1).val = win0_4.index t (1 : Fin 4) * 40 + 1 * (j 1).val
      omega
    | ⟨2, _⟩ =>
      show win0_0.index t (2 : Fin 3) * 512 + 1 * k.val = k.val
      omega
  · intro k
    show V m c main_arg1 (((cfg0.win 1).blk t).view.emb (ix3 (0 : Fin 1) (j 2) k))
      = V m c main_arg1 (ix3 ((((cfg0.win 4).blk t).view.emb j) 0) ((((cfg0.win 4).blk t).view.emb j) 2) k)
    refine congrArg (V m c main_arg1) (funext fun a => Fin.ext ?_)
    match a with
    | ⟨0, _⟩ =>
      show win0_1.index t (0 : Fin 3) * 1 + 1 * 0 = win0_4.index t (0 : Fin 4) * 1 + 1 * (j 0).val
      have hj : (j 0).val < 1 := (j 0).isLt
      omega
    | ⟨1, _⟩ =>
      show win0_1.index t (1 : Fin 3) * 50 + 1 * (j 2).val = win0_4.index t (2 : Fin 4) * 50 + 1 * (j 2).val
      omega
    | ⟨2, _⟩ =>
      show win0_1.index t (2 : Fin 3) * 512 + 1 * k.val = k.val
      omega
  · intro k
    show V m c main_arg2 (((cfg0.win 2).blk t).view.emb (ix2 (j 3) k))
      = V m c main_arg2 (ix2 ((((cfg0.win 4).blk t).view.emb j) 3) k)
    refine congrArg (V m c main_arg2) (funext fun a => Fin.ext ?_)
    match a with
    | ⟨0, _⟩ =>
      show win0_2.index t (0 : Fin 2) * 1024 + 1 * (j 3).val = win0_4.index t (3 : Fin 4) * 1024 + 1 * (j 3).val
      omega
    | ⟨1, _⟩ =>
      show win0_2.index t (1 : Fin 2) * 512 + 1 * k.val = k.val
      omega
  · show V m c main_arg3 (((cfg0.win 3).blk t).view.emb (ix1 (j 3)))
      = V m c main_arg3 (ix1 ((((cfg0.win 4).blk t).view.emb j) 3))
    refine congrArg (V m c main_arg3) (funext fun a => Fin.ext ?_)
    match a with
    | ⟨0, _⟩ =>
      show win0_3.index t (0 : Fin 1) * 1024 + 1 * (j 3).val = win0_4.index t (3 : Fin 4) * 1024 + 1 * (j 3).val
      omega

/-- An index of the output array is in point `t`'s block iff each coordinate is in the block's range on its axis. -/
theorem mem_blk (t : Fin cfg0.N) (i : S8x200x50x1024.Idx) :
    i ∈ ((cfg0.win 4).blk t).view.set ↔ ∀ a : Fin 4, win0_4.index t a * S1x40x50x1024.size a ≤ (i a).val
      ∧ (i a).val < win0_4.index t a * S1x40x50x1024.size a + S1x40x50x1024.size a := by
  show i ∈ ((View.whole main_v0).slice (win0_4.rect t)).set ↔ _
  rw [View.set_slice_whole, Rect.mem_set_unit]
  exact Iff.rfl

/-- The blocks tile the output: (b, t, u, v) is in the block of the point with block index (b, t / 40, 0, 0). -/
theorem covered (i : S8x200x50x1024.Idx) :
    ∃ t : Fin cfg0.N, (cfg0.win 4).flush t = true ∧ i ∈ ((cfg0.win 4).blk t).view.set := by
  have hi0 : (i 0).val < 8 := (i 0).isLt
  have hi1 : (i 1).val < 200 := (i 1).isLt
  have hi2 : (i 2).val < 50 := (i 2).isLt
  have hi3 : (i 3).val < 1024 := (i 3).isLt
  obtain ⟨t, ht⟩ := idx_onto ⟨(i 0).val, hi0⟩ ⟨(i 1).val / 40, by omega⟩
  have q0 : win0_4.index t (0 : Fin 4) = (i 0).val := congrFun ht 0
  have q1 : win0_4.index t (1 : Fin 4) = (i 1).val / 40 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 40 ≤ (i 1).val ∧ (i 1).val < win0_4.index t (1 : Fin 4) * 40 + 40
    omega
  | ⟨2, _⟩ =>
    show win0_4.index t (2 : Fin 4) * 50 ≤ (i 2).val ∧ (i 2).val < win0_4.index t (2 : Fin 4) * 50 + 50
    omega
  | ⟨3, _⟩ =>
    show win0_4.index t (3 : Fin 4) * 1024 ≤ (i 3).val ∧ (i 3).val < win0_4.index t (3 : Fin 4) * 1024 + 1024
    omega

/-- The output array after the run is `joined`. -/
theorem final (c : Dev nD) : (dats m 0 c).arrAt 4 cfg0.N = joined m c :=
  (dats m 0 c).arrAt_eq_of_cover 4 (joined m c) (fun t _ => flushed_eq m c t) covered

/-- The kernel's run: the result array ends at `projThenAdd` of the argument arrays, the arguments unchanged. -/
theorem run : θ_run defs (onTc (τ := τ) (main (F := Ideal))) ⟨m, fun _ => 0, ρ⟩ fun r => ∀ c : Dev nD,
      r.2.mem ((c : Thread nD τ).loc main_v0)
        = Joiner.projThenAdd (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference's result, index by index: it is the arrangement "add the rows, project once, add the bias".

  The reference broadcasts the encoder array along a new U axis and the predictor array along a new T axis, adds
  them into a [B, T, U, D] array, contracts its last axis against the last axis of W, and adds the bias broadcast
  along B, T and U. Read at an output index (b, t, u, v), each broadcast reads its operand at the coordinates it
  keeps: the encoder at (b, t, k), the predictor at (b, u, k), W at (v, k), the bias at v; so the entry is
  (Σ_k (enc[b,t,k] + pred[b,u,k]) · W[v,k]) + bias[v]. No property of the entries is used.
-/
import proofs.«153829_j43542378446962_1_alg».proof.Proof.Gen.ReferenceIdeal.Read
import proofs.«153829_j43542378446962_1_alg».proof.Proof.Spec

noncomputable section

namespace Cert.ReferenceIdeal.RefValue

open Cert.ReferenceIdeal Cert.ReferenceIdeal.Read Idealize.ShloMosaic Idealize.ShloMosaic.ValueIdx

/-- The two broadcasts of the encoder array, composed, read it at (b, t, k). -/
theorem enc_idx (i : S8x200x50x1024.Idx) (k : Fin 512) :
    idx_main_v0 (idx_main_v2 (lidx_main_v5 i k)) = (ix3 (i 0) (i 1) k : S8x200x512.Idx) :=
  funext fun a => Fin.ext (by match a with | ⟨0, _⟩ => rfl | ⟨1, _⟩ => rfl | ⟨2, _⟩ => rfl)

/-- The two broadcasts of the predictor array, composed, read it at (b, u, k). -/
theorem pred_idx (i : S8x200x50x1024.Idx) (k : Fin 512) :
    idx_main_v1 (idx_main_v3 (lidx_main_v5 i k)) = (ix3 (i 0) (i 2) k : S8x50x512.Idx) :=
  funext fun a => Fin.ext (by match a with | ⟨0, _⟩ => rfl | ⟨1, _⟩ => rfl | ⟨2, _⟩ => rfl)

/-- The contraction reads W at (v, k). -/
theorem weight_idx (i : S8x200x50x1024.Idx) (k : Fin 512) :
    ridx_main_v5 i k = (ix2 (i 3) k : S1024x512.Idx) :=
  funext fun a => Fin.ext (by match a with | ⟨0, _⟩ => rfl | ⟨1, _⟩ => rfl)

/-- The two broadcasts of the bias, composed, read it at v. -/
theorem bias_idx (i : S8x200x50x1024.Idx) :
    idx_main_v6 (idx_main_v7 i) = (ix1 (i 3) : S1024.Idx) :=
  funext fun a => Fin.ext (by match a with | ⟨0, _⟩ => rfl)

/-- The reference's last stage is `addThenProj` of its four arguments. -/
theorem result_eq (x0 : (⟨S8x200x512, .f32⟩ : BufTy).Contents (Elt Ideal)) (x1 : (⟨S8x50x512, .f32⟩ : BufTy).Contents (Elt Ideal))
    (x2 : (⟨S1024x512, .f32⟩ : BufTy).Contents (Elt Ideal)) (x3 : (⟨S1024, .f32⟩ : BufTy).Contents (Elt Ideal)) :
    val_main_v8 (F := Ideal) x0 x1 x2 x3 = Joiner.addThenProj x0 x1 x2 x3 := by
  funext i
  rw [val_main_v8_apply, val_main_v5_apply, val_main_v7_apply, val_main_v6_apply, bias_idx]
  unfold Joiner.addThenProj
  refine congrArg (· + x3 (ix1 (i 3))) (Finset.sum_congr rfl fun k _ => ?_)
  rw [val_main_v4_apply, val_main_v2_apply, val_main_v0_apply, val_main_v3_apply, val_main_v1_apply,
    enc_idx, pred_idx, weight_idx]
  rfl

end Cert.ReferenceIdeal.RefValue

end
-- ==== Proof.Finite.lean ====
/-
  From the precondition to "every entry is a real number".

  The precondition is the conjunction, over the four float arguments, of "every entry's absolute value is below
  +∞" (the word 0x7F800000 is +∞; the absolute value of x is max x (−x)). An extended real whose absolute value is
  below +∞ is neither infinity, so it is a real number. The conjunction is a one-entry array of bits equal to 1;
  each conjunct is an `and`-reduction over all axes of an array of comparison bits, which being 1 makes every
  bit 1. Only the encoder's, the predictor's and the weight's conjuncts are used: the bias is added, never multiplied.
-/
import proofs.«153829_j43542378446962_1_alg».proof.Pre_finite_inputs
import proofs.«153829_j43542378446962_1_alg».proof.Proof.Spec
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Idealize.ShloMosaic

variable [Facts]

/-- The one-entry index set has one index. -/
instance : Subsingleton S_.Idx := ⟨fun a b => funext fun d => d.elim0⟩

/-- The f32 word with all exponent bits set and no fraction bit is +∞. -/
theorem inf_word : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  have h' : max x (-x) < ⊤ := by
    cases hd : decide (max x (-x) < ⊤) with
    | true => exact of_decide_eq_true hd
    | false =>
      exfalso
      have : Ideal.cmp .olt (max x (-x)) ⊤ = BitVec.ofBool (decide (max x (-x) < ⊤)) := rfl
      rw [this, hd] at h
      exact absurd h (by decide)
  induction x using EReal.rec with
  | bot => exact absurd h' (by simp)
  | coe r => exact ⟨r, rfl⟩
  | top => exact absurd h' (by simp)

/-- Under the precondition the encoder, predictor and weight arrays hold real numbers. -/
theorem allReal_of_pre (a0 : FVec Ideal S8x200x512 .f32) (a1 : FVec Ideal S8x50x512 .f32)
    (a2 : FVec Ideal S1024x512 .f32) (a3 : FVec Ideal S1024 .f32)
    (h : fn (F := Ideal) a0 a1 a2 a3 = fun _ => 1#1) :
    Joiner.AllReal a0 ∧ Joiner.AllReal a1 ∧ Joiner.AllReal a2 := by
  have h0 := congrFun h ValueIdx.ix0
  dsimp only [fn, fn_part1, andi] at h0
  rw [IntOp.andi_eq_one, IntOp.andi_eq_one, IntOp.andi_eq_one] at h0
  obtain ⟨⟨⟨e0, e1⟩, e2⟩, -⟩ := h0
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i)⟩

end Cert.Pre_finite_inputs.Finite

end
-- ==== Proof.lean ====
/-
  The joiner kernel against its reference, over the extended reals.

  Both programs compute out[b, t, u, v] = Linear(enc[b, t, :] + pred[b, u, :])[v] for the affine map
  Linear(x) = W x + bias. The reference adds the two rows and projects the sum once:
      (Σ_k (enc[b,t,k] + pred[b,u,k]) · W[v,k]) + bias[v]                                   (Spec: addThenProj).
  The kernel, on an 8 × 5 grid of (batch entry, block of 40 encoder rows), projects the encoder rows and the
  predictor rows through W separately and adds the projections and the bias:
      (Σ_k enc[b,t,k] · W[v,k]) + (Σ_k pred[b,u,k] · W[v,k]) + bias[v]                       (Spec: projThenAdd).
  Its changes of float format before the products are the identity on extended reals, and the products accumulate
  into zero. The two arrangements agree by distributing W[v,k] over enc[b,t,k] + pred[b,u,k] in every term and
  splitting the sum; on the extended reals the distributive step needs its three factors finite, which is what the
  precondition gives (Finite: every entry of enc, pred and W is a real number; the bias's conjunct is not used).

  The parts: Spec (the two arrangements and the law between them), LibTransposedRhsDot (a product against a
  transposed right operand read at an entry), KernelPayload (the body's stored value at an index), KernelValue (each
  grid point writes the restriction of projThenAdd to its block, the blocks tile the output, so the array ends at
  projThenAdd of the arguments), RefValue (the reference's last stage is addThenProj of its arguments), Finite
  (the precondition read entry by entry). The three frame claims are the generated frames; for the reference, its
  generated run with the result dropped. The idealization rewrote nothing, so there is nothing to preserve.
-/
import proofs.«153829_j43542378446962_1_alg».proof.Defs
import proofs.«153829_j43542378446962_1_alg».proof.Proof.Gen.Kernel
import proofs.«153829_j43542378446962_1_alg».proof.Proof.Gen.Kernel.Frame
import proofs.«153829_j43542378446962_1_alg».proof.Proof.Gen.KernelIdeal
import proofs.«153829_j43542378446962_1_alg».proof.Proof.Gen.KernelIdeal.Frame
import proofs.«153829_j43542378446962_1_alg».proof.Proof.Gen.KernelIdeal.Value
import proofs.«153829_j43542378446962_1_alg».proof.Proof.Gen.ReferenceIdeal
import proofs.«153829_j43542378446962_1_alg».proof.Proof.Gen.ReferenceIdeal.Run
import proofs.«153829_j43542378446962_1_alg».proof.Proof.Gen.ReferenceIdeal.Read
import proofs.«153829_j43542378446962_1_alg».proof.Proof.Gen.Pre_finite_inputs
import proofs.«153829_j43542378446962_1_alg».proof.Proof.Spec
import proofs.«153829_j43542378446962_1_alg».proof.Proof.KernelValue
import proofs.«153829_j43542378446962_1_alg».proof.Proof.RefValue
import proofs.«153829_j43542378446962_1_alg».proof.Proof.Finite
import Idealize.ShloMosaic.Adequacy
import Idealize.ShloMosaic.Init

noncomputable section

namespace Cert.Proof

open Idealize.ShloMosaic Idealize.SL.Sem

/-- From memories that agree on the four arguments, of which the precondition holds: the kernel's result array ends at
    projThenAdd of the arguments, the reference's at addThenProj of the same arrays, and the entries of enc, pred and
    W being real numbers the two are one array. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]
  obtain ⟨r0, r1, r2⟩ := Cert.Pre_finite_inputs.Finite.allReal_of_pre _ _ _ _ (hpre c)
  exact Joiner.addThenProj_eq _ _ _ _ r0 r1 r2

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
